-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S1700000x128 : Shape := ⟨2, ![1700000, 128]⟩
abbrev S1x128 : Shape := ⟨2, ![1, 128]⟩

abbrev nBuf : Space → Nat
  | .hbm => 76
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x64, .f32⟩
  | .hbm, ⟨40, _⟩ => ⟨S1700000x1, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x64, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x128, .f32⟩
  | .hbm, ⟨58, _⟩ => ⟨S1700000x1, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x128, .f32⟩
  | .hbm, ⟨68, _⟩ => ⟨S1700000x128, .f32⟩
  | .hbm, ⟨69, _⟩ => ⟨S1700000x128, .f32⟩
  | .hbm, ⟨70, _⟩ => ⟨S_, .f32⟩
  | .hbm, ⟨71, _⟩ => ⟨S100000x128, .f32⟩
  | .hbm, ⟨72, _⟩ => ⟨S1700000x1, .i32⟩
  | .hbm, ⟨73, _⟩ => ⟨S100000x128, .f32⟩
  | .hbm, ⟨74, _⟩ => ⟨S1x128, .f32⟩
  | .hbm, ⟨75, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x128_S5000x128_1_0_0_1_n_n_wf : DotDims.WF S5000x64 S64x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1700000x128 : Shape := ⟨2, ![1700000, 128]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x64, .f32⟩
  | .hbm, ⟨40, _⟩ => ⟨S1700000x1, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x64, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x128, .f32⟩
  | .hbm, ⟨63, _⟩ => ⟨S1700000x1, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x128, .f32⟩
  | .hbm, ⟨73, _⟩ => ⟨S1700000x128, .f32⟩
  | .hbm, ⟨74, _⟩ => ⟨S1700000x128, .f32⟩
  | .hbm, ⟨75, _⟩ => ⟨S_, .f32⟩
  | .hbm, ⟨76, _⟩ => ⟨S100000x128, .f32⟩
  | .hbm, ⟨77, _⟩ => ⟨S1700000x1, .i32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_7 : Ref sig .tc := ⟨.hbm, 64, rfl⟩
abbrev main_v47 : Ref sig .tc := ⟨.hbm, 65, rfl⟩
abbrev main_v48 : Ref sig .tc := ⟨.hbm, 66, rfl⟩
abbrev main_c_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
/-
  What the kernel's three dense stages hold, index by index over the extended reals, named free of either program's
  vocabulary so that both sides can be stated against the same functions:

    * `matProd A B`      — the matrix product: entry (p, o) is the sum over k of A (p, k) · B (k, o);
    * `biasRelu a b`     — a row vector added to every row, then the positive part: max (a (p, o) + b (0, o)) 0;
    * `addRow a b`       — a row vector added to every row: a (p, o) + b (0, o).

  A sum over a finite index set of extended reals does not depend on how its terms are grouped or ordered, so a product
  computed row block by row block and the product computed at once are the same function: nothing here needs the
  entries to be finite.
-/
import Idealize.ShloMosaic.PureOps.Ideal.Laws
import Idealize.ShloMosaic.Lib.ValueIdx

noncomputable section

open scoped BigOperators
open Idealize.ShloMosaic Idealize.ShloMosaic.ValueIdx

namespace Cert.Spec

/-- The matrix product of an [M, K] array and a [K, N] array. -/
def matProd {M K N : ℕ} (A : FVec Ideal ⟨2, ![M, K]⟩ .f32) (B : FVec Ideal ⟨2, ![K, N]⟩ .f32) :
    FVec Ideal ⟨2, ![M, N]⟩ .f32 :=
  fun i => ∑ k : Fin K, A (ix2 ⟨(i 0).val, idx2_lt0 i⟩ k) * B (ix2 k ⟨(i 1).val, idx2_lt1 i⟩)

theorem matProd_apply {M K N : ℕ} (A : FVec Ideal ⟨2, ![M, K]⟩ .f32) (B : FVec Ideal ⟨2, ![K, N]⟩ .f32)
    (p : Fin M) (o : Fin N) : matProd A B (ix2 p o) = ∑ k : Fin K, A (ix2 p k) * B (ix2 k o) := rfl

/-- A [1, K] row added to every row of an [M, K] array, then the positive part. -/
def biasRelu {M K : ℕ} (a : FVec Ideal ⟨2, ![M, K]⟩ .f32) (b : FVec Ideal ⟨2, ![1, K]⟩ .f32) :
    FVec Ideal ⟨2, ![M, K]⟩ .f32 :=
  fun i => max (a i + b (ix2 (0 : Fin 1) ⟨(i 1).val, idx2_lt1 i⟩)) (Ideal.ofBits .f32 0x00000000#32)

theorem biasRelu_apply {M K : ℕ} (a : FVec Ideal ⟨2, ![M, K]⟩ .f32) (b : FVec Ideal ⟨2, ![1, K]⟩ .f32)
    (p : Fin M) (o : Fin K) :
    biasRelu a b (ix2 p o) = max (a (ix2 p o) + b (ix2 (0 : Fin 1) o)) (Ideal.ofBits .f32 0x00000000#32) := rfl

/-- A [1, K] row added to every row of an [M, K] array. -/
def addRow {M K : ℕ} (a : FVec Ideal ⟨2, ![M, K]⟩ .f32) (b : FVec Ideal ⟨2, ![1, K]⟩ .f32) :
    FVec Ideal ⟨2, ![M, K]⟩ .f32 :=
  fun i => a i + b (ix2 (0 : Fin 1) ⟨(i 1).val, idx2_lt1 i⟩)

theorem addRow_apply {M K : ℕ} (a : FVec Ideal ⟨2, ![M, K]⟩ .f32) (b : FVec Ideal ⟨2, ![1, K]⟩ .f32)
    (p : Fin M) (o : Fin K) : addRow a b (ix2 p o) = a (ix2 p o) + b (ix2 (0 : Fin 1) o) := rfl

/-- Two functions of a rank-2 index agree when they agree at every pair of coordinates. -/
theorem ext_ix2 {n0 n1 : ℕ} {α : Type} (f g : (⟨2, ![n0, n1]⟩ : Shape).Idx → α)
    (h : ∀ (p : Fin n0) (o : Fin n1), f (ix2 p o) = g (ix2 p o)) : f = g :=
  funext fun j => by rw [eq_ix2 j]; exact h _ _

end Cert.Spec

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.Lin1.lean ====
/-
  Region 0, the first projection. Each of the 20 grid points loads rows 5000·t … 5000·t + 4999 of the node features and
  the whole [128, 64] weight, multiplies them into a zero accumulator, and writes the [5000, 64] product back as rows
  5000·t … of the result. Entry (p, o) of a point's product is the sum over k of (row 5000·t + p, column k) of the features
  times (k, o) of the weight, which is entry (5000·t + p, o) of the product of the whole arrays; the 20 row blocks tile
  the result, so after the region the result array IS the product of the two arrays the region found on entry.
-/
import proofs.«124801_j39848706572466_1_alg».proof.Proof.Gen.KernelIdeal.Frame
import proofs.«124801_j39848706572466_1_alg».proof.Proof.Spec
import proofs.«124801_j39848706572466_1_alg».proof.Proof.LibPlainMatmul
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Lin1

open Cert.KernelIdeal Cert.KernelIdeal.Gen

theorem hz : (![0, 0] : Fin 2 → Nat) = fun _ => 0 := funext fun a => by fin_cases a <;> rfl

/-! ## The block product at an index -/

theorem lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- What a point stores at (p, o): the sum over k of its feature block at (p, k) times the weight at (k, o). The two
    narrowings to bf16 are the identity on extended reals, and the accumulator starts at zero. -/
theorem pay_apply (x0 : Vec Ideal S5000x128 .f32) (x1 : Vec Ideal S128x64 .f32) (p : Fin 5000) (o : Fin 64) :
    k0_pay1 (F := Ideal) x0 x1 (ix2 p o) = ∑ k : Fin 128, x0 (ix2 p k) * x1 (ix2 k o) := by
  unfold k0_pay1
  exact Cert.LibPlainMatmul.matmul_zero_apply dot_S5000x128_S128x64_S5000x64_1_0_0_1_n_n none rfl rfl lhs_0 lhs_1 rhs_0 rhs_1 _ _ p o

/-! ## Where a point's blocks sit in their arrays -/

/-- The printed index maps over the grid: the feature window and the result window move down one row block per point,
    the weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- WHAT POINT `t` WRITES BACK is block `t` of the product of the two arrays as the region finds them. -/
theorem flushed_eq (c : Dev nD) (t : Fin cfg0.N) :
    (dat0 (F := Ideal) V c).flushed 2 t
      = ((cfg0.win 2).blk t).view.read (Elt Ideal) (Cert.Spec.matProd (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := idx_facts t
  refine Cert.Spec.ext_ix2 _ _ fun p o => ?_
  have ht : t.val < 20 := t.isLt
  refine (pay_apply (iblk0 V c 0 t) (iblk0 V c 1 t) p o).trans ?_
  rw [View.read_apply]
  have hrow : ((View.whole main_v27).slice ((win0 2).rect t)).emb (ix2 p o)
      = (ix2 (⟨5000 * t.val + p.val, by omega⟩ : Fin 100000) o : S100000x64.Idx) := by
    funext a; apply Fin.ext
    match a with
    | ⟨0, _⟩ => show win0_2.index t (0 : Fin 2) * 5000 + 1 * p.val = 5000 * t.val + p.val; omega
    | ⟨1, _⟩ => show win0_2.index t (1 : Fin 2) * 64 + 1 * o.val = o.val; omega
  rw [hrow, Cert.Spec.matProd_apply]
  refine Finset.sum_congr rfl fun k _ => ?_
  have h0 : iblk0 V c 0 t (ix2 p k)
      = (V c main_arg0 : S100000x128.Idx → Elt Ideal .f32) (ix2 (⟨5000 * t.val + p.val, by omega⟩ : Fin 100000) k) := by
    unfold iblk0
    rw [View.read_apply]
    refine congrArg (V c main_arg0 : S100000x128.Idx → Elt Ideal .f32) ?_
    funext a; apply Fin.ext
    match a with
    | ⟨0, _⟩ => show win0_0.index t (0 : Fin 2) * 5000 + 1 * p.val = 5000 * t.val + p.val; omega
    | ⟨1, _⟩ => show win0_0.index t (1 : Fin 2) * 128 + 1 * k.val = k.val; omega
  have h1 : iblk0 V c 1 t (ix2 k o) = (V c main_arg2 : S128x64.Idx → Elt Ideal .f32) (ix2 k o) := by
    unfold iblk0
    rw [View.read_apply]
    refine congrArg (V c main_arg2 : S128x64.Idx → Elt Ideal .f32) ?_
    funext a; apply Fin.ext
    match a with
    | ⟨0, _⟩ => show win0_1.index t (0 : Fin 2) * 128 + 1 * k.val = k.val; omega
    | ⟨1, _⟩ => show win0_1.index t (1 : Fin 2) * 64 + 1 * o.val = o.val; omega
  rw [h0, h1]

/-- An index of the result array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v27).slice (win0_2.rect t)).set ↔ _
  rw [View.set_slice_whole, Rect.mem_set_unit]
  exact Iff.rfl

/-- The row blocks tile the result: row r is in the block of point r / 5000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hlt : (i 0).val / 5000 < 20 := by omega
  obtain ⟨-, -, -, -, e4, e5⟩ := idx_facts ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 64 ≤ (i 1).val
      ∧ (i 1).val < win0_2.index ⟨(i 0).val / 5000, hlt⟩ (1 : Fin 2) * 64 + 64
    rw [e5]; omega

/-- THE RESULT ARRAY after the region: the product of the feature array and the weight array as the region found them. -/
theorem array_eq (c : Dev nD) :
    (dat0 (F := Ideal) V c).arrAt 2 cfg0.N = Cert.Spec.matProd (V c main_arg0) (V c main_arg2) :=
  (dat0 V c).arrAt_eq_of_cover 2 _ (fun t _ => flushed_eq V c t) cover

end Cert.KernelIdeal.Lin1

end
-- ==== Proof.Lin2.lean ====
/-
  Region 1, the bias, the positive part and the second projection fused. Each of the 20 grid points loads rows
  5000·t … 5000·t + 4999 of the aggregated hidden features, the [1, 64] bias row and the whole [64, 128] weight, forms
  h = max (block + bias row, 0), multiplies h by the weight into a zero accumulator, and writes the [5000, 128] product back
  as rows 5000·t … of the result. Entry (p, o) of a point's product is the sum over k of max (agg (5000·t + p, k) + b (0, k), 0)
  times (k, o) of the weight: entry (5000·t + p, o) of the product of the whole activated array with the weight. The 20
  row blocks tile the result.
-/
import proofs.«124801_j39848706572466_1_alg».proof.Proof.Gen.KernelIdeal.Frame
import proofs.«124801_j39848706572466_1_alg».proof.Proof.Spec
import proofs.«124801_j39848706572466_1_alg».proof.Proof.LibPlainMatmul
import Idealize.ShloMosaic.Lib.Pipeline.Value
import Idealize.ShloMosaic.Lib.ValueLayout

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Lin2

open Cert.KernelIdeal Cert.KernelIdeal.Gen

theorem hz : (![0, 0] : Fin 2 → Nat) = fun _ => 0 := funext fun a => by fin_cases a <;> rfl

/-! ## The block product at an index -/

theorem lhs_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- What a point stores at (p, o): the sum over k of the positive part of (its block at (p, k) plus the bias at k) times
    the weight at (k, o). The casts to the same shape and the narrowings to bf16 are the identity; the accumulator starts
    at zero. -/
theorem pay_apply (x0 : Vec Ideal S5000x64 .f32) (x1 : Vec Ideal S1x64 .f32) (x2 : Vec Ideal S64x128 .f32)
    (p : Fin 5000) (o : Fin 128) :
    k1_pay1 (F := Ideal) x0 x1 x2 (ix2 p o)
      = ∑ k : Fin 64, max (x0 (ix2 p k) + x1 (ix2 (0 : Fin 1) k)) (Ideal.ofBits .f32 0x00000000#32) * x2 (ix2 k o) := by
  unfold k1_pay1
  refine (Cert.LibPlainMatmul.matmul_zero_apply dot_S5000x64_S64x128_S5000x128_1_0_0_1_n_n none rfl rfl lhs_0 lhs_1 rhs_0 rhs_1 _ _ p o).trans ?_
  refine Finset.sum_congr rfl fun k _ => ?_
  simp only [truncf_apply, maximumf_apply, addf_apply, broadcast_apply, shapeCast_self]
  rw [broadcastTo_1b_ab_apply x1 broadcasts_S1x64_S5000x64 p k]
  rfl

/-! ## Where a point's blocks sit in their arrays -/

/-- The printed index maps over the grid: the activation window and the result window move down one row block per
    point; the bias window and the weight window stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- WHAT POINT `t` WRITES BACK is block `t` of (the positive part of the activations plus the bias row) times the weight,
    of the three arrays as the region finds them. -/
theorem flushed_eq (c : Dev nD) (t : Fin cfg1.N) :
    (dat1 (F := Ideal) V c).flushed 3 t
      = ((cfg1.win 3).blk t).view.read (Elt Ideal)
          (Cert.Spec.matProd (Cert.Spec.biasRelu (V c main_v40) (V c main_v41)) (V c main_arg4)) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz, View.ld_unit_zero (S := S64x128) hz]
  obtain ⟨e0, e1, e2, e3, e4, e5, e6, e7⟩ := idx_facts t
  refine Cert.Spec.ext_ix2 _ _ fun p o => ?_
  have ht : t.val < 20 := t.isLt
  refine (pay_apply (iblk1 V c 0 t) (iblk1 V c 1 t) (iblk1 V c 2 t) p o).trans ?_
  rw [View.read_apply]
  have hrow : ((View.whole main_v42).slice ((win1 3).rect t)).emb (ix2 p o)
      = (ix2 (⟨5000 * t.val + p.val, by omega⟩ : Fin 100000) o : S100000x128.Idx) := by
    funext a; apply Fin.ext
    match a with
    | ⟨0, _⟩ => show win1_3.index t (0 : Fin 2) * 5000 + 1 * p.val = 5000 * t.val + p.val; omega
    | ⟨1, _⟩ => show win1_3.index t (1 : Fin 2) * 128 + 1 * o.val = o.val; omega
  rw [hrow, Cert.Spec.matProd_apply]
  refine Finset.sum_congr rfl fun k _ => ?_
  rw [Cert.Spec.biasRelu_apply]
  have h0 : iblk1 V c 0 t (ix2 p k)
      = (V c main_v40 : S100000x64.Idx → Elt Ideal .f32) (ix2 (⟨5000 * t.val + p.val, by omega⟩ : Fin 100000) k) := by
    unfold iblk1
    rw [View.read_apply]
    refine congrArg (V c main_v40 : S100000x64.Idx → Elt Ideal .f32) ?_
    funext a; apply Fin.ext
    match a with
    | ⟨0, _⟩ => show win1_0.index t (0 : Fin 2) * 5000 + 1 * p.val = 5000 * t.val + p.val; omega
    | ⟨1, _⟩ => show win1_0.index t (1 : Fin 2) * 64 + 1 * k.val = k.val; omega
  have h1 : iblk1 V c 1 t (ix2 (0 : Fin 1) k) = (V c main_v41 : S1x64.Idx → Elt Ideal .f32) (ix2 (0 : Fin 1) k) := by
    unfold iblk1
    rw [View.read_apply]
    refine congrArg (V c main_v41 : S1x64.Idx → Elt Ideal .f32) ?_
    funext a; apply Fin.ext
    match a with
    | ⟨0, _⟩ => show win1_1.index t (0 : Fin 2) * 1 + 1 * 0 = 0; omega
    | ⟨1, _⟩ => show win1_1.index t (1 : Fin 2) * 64 + 1 * k.val = k.val; omega
  have h2 : iblk1 V c 2 t (ix2 k o) = (V c main_arg4 : S64x128.Idx → Elt Ideal .f32) (ix2 k o) := by
    unfold iblk1
    rw [View.read_apply]
    refine congrArg (V c main_arg4 : S64x128.Idx → Elt Ideal .f32) ?_
    funext a; apply Fin.ext
    match a with
    | ⟨0, _⟩ => show win1_2.index t (0 : Fin 2) * 64 + 1 * k.val = k.val; omega
    | ⟨1, _⟩ => show win1_2.index t (1 : Fin 2) * 128 + 1 * o.val = o.val; omega
  rw [h0, h1, h2]

/-- An index of the result array is in point `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v42).slice (win1_3.rect t)).set ↔ _
  rw [View.set_slice_whole, Rect.mem_set_unit]
  exact Iff.rfl

/-- The row blocks tile the result: row r is in the block of point r / 5000. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hlt : (i 0).val / 5000 < 20 := by omega
  obtain ⟨-, -, -, -, -, -, e6, e7⟩ := idx_facts ⟨(i 0).val / 5000, hlt⟩
  refine ⟨⟨(i 0).val / 5000, hlt⟩, flush1_3 _, ?_⟩
  rw [mem_blk]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, hlt⟩ (1 : Fin 2) * 128 ≤ (i 1).val
      ∧ (i 1).val < win1_3.index ⟨(i 0).val / 5000, hlt⟩ (1 : Fin 2) * 128 + 128
    rw [e7]; omega

/-- THE RESULT ARRAY after the region: (the positive part of the activations plus the bias row) times the weight, of the
    three arrays as the region found them. -/
theorem array_eq (c : Dev nD) :
    (dat1 (F := Ideal) V c).arrAt 3 cfg1.N
      = Cert.Spec.matProd (Cert.Spec.biasRelu (V c main_v40) (V c main_v41)) (V c main_arg4) :=
  (dat1 V c).arrAt_eq_of_cover 3 _ (fun t _ => flushed_eq V c t) cover

end Cert.KernelIdeal.Lin2

end
-- ==== Proof.BiasOut.lean ====
/-
  Region 2, the final bias. Each of the 20 grid points loads rows 5000·t … 5000·t + 4999 of the second aggregation and the
  [1, 128] bias row, adds the row to every row of the block, and writes the [5000, 128] sum back as rows 5000·t … of the
  result: entry (5000·t + p, o) of the aggregation plus the bias at o. The 20 row blocks tile the result.
-/
import proofs.«124801_j39848706572466_1_alg».proof.Proof.Gen.KernelIdeal.Frame
import proofs.«124801_j39848706572466_1_alg».proof.Proof.Spec
import Idealize.ShloMosaic.Lib.Pipeline.Value
import Idealize.ShloMosaic.Lib.ValueLayout

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.BiasOut

open Cert.KernelIdeal Cert.KernelIdeal.Gen

theorem hz : (![0, 0] : Fin 2 → Nat) = fun _ => 0 := funext fun a => by fin_cases a <;> rfl

/-- What a point stores at (p, o): its block at (p, o) plus the bias at o. The casts to the same shape are the identity. -/
theorem pay_apply (x0 : Vec Ideal S5000x128 .f32) (x1 : Vec Ideal S1x128 .f32) (p : Fin 5000) (o : Fin 128) :
    k2_pay1 (F := Ideal) x0 x1 (ix2 p o) = x0 (ix2 p o) + x1 (ix2 (0 : Fin 1) o) := by
  unfold k2_pay1
  simp only [addf_apply, shapeCast_self]
  rw [broadcastTo_1b_ab_apply x1 broadcasts_S1x128_S5000x128 p o]

/-- The printed index maps over the grid: the aggregation window and the result window move down one row block per
    point; the bias window stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- WHAT POINT `t` WRITES BACK is block `t` of the aggregation plus the bias row, of the two arrays as the region finds
    them. -/
theorem flushed_eq (c : Dev nD) (t : Fin cfg2.N) :
    (dat2 (F := Ideal) V c).flushed 2 t
      = ((cfg2.win 2).blk t).view.read (Elt Ideal) (Cert.Spec.addRow (V c main_v55) (V c main_v56)) := by
  show (cfg2.win 2).cut (grid2.coords t) ((dat2 V c).after 2 t) = _
  rw [after2_2]
  unfold out2_2
  rw [View.canon_unit_zero hz]
  simp only [View.ld_unit_zero (S := S5000x128) hz, View.ld_unit_zero (S := S1x128) hz]
  obtain ⟨e0, e1, e2, e3, e4, e5⟩ := idx_facts t
  refine Cert.Spec.ext_ix2 _ _ fun p o => ?_
  have ht : t.val < 20 := t.isLt
  refine (pay_apply (iblk2 V c 0 t) (iblk2 V c 1 t) p o).trans ?_
  rw [View.read_apply]
  have hrow : ((View.whole main_v57).slice ((win2 2).rect t)).emb (ix2 p o)
      = (ix2 (⟨5000 * t.val + p.val, by omega⟩ : Fin 100000) o : S100000x128.Idx) := by
    funext a; apply Fin.ext
    match a with
    | ⟨0, _⟩ => show win2_2.index t (0 : Fin 2) * 5000 + 1 * p.val = 5000 * t.val + p.val; omega
    | ⟨1, _⟩ => show win2_2.index t (1 : Fin 2) * 128 + 1 * o.val = o.val; omega
  rw [hrow, Cert.Spec.addRow_apply]
  have h0 : iblk2 V c 0 t (ix2 p o)
      = (V c main_v55 : S100000x128.Idx → Elt Ideal .f32) (ix2 (⟨5000 * t.val + p.val, by omega⟩ : Fin 100000) o) := by
    unfold iblk2
    rw [View.read_apply]
    refine congrArg (V c main_v55 : S100000x128.Idx → Elt Ideal .f32) ?_
    funext a; apply Fin.ext
    match a with
    | ⟨0, _⟩ => show win2_0.index t (0 : Fin 2) * 5000 + 1 * p.val = 5000 * t.val + p.val; omega
    | ⟨1, _⟩ => show win2_0.index t (1 : Fin 2) * 128 + 1 * o.val = o.val; omega
  have h1 : iblk2 V c 1 t (ix2 (0 : Fin 1) o) = (V c main_v56 : S1x128.Idx → Elt Ideal .f32) (ix2 (0 : Fin 1) o) := by
    unfold iblk2
    rw [View.read_apply]
    refine congrArg (V c main_v56 : S1x128.Idx → Elt Ideal .f32) ?_
    funext a; apply Fin.ext
    match a with
    | ⟨0, _⟩ => show win2_1.index t (0 : Fin 2) * 1 + 1 * 0 = 0; omega
    | ⟨1, _⟩ => show win2_1.index t (1 : Fin 2) * 128 + 1 * o.val = o.val; omega
  rw [h0, h1]
  rfl

/-- An index of the result array is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v57).slice (win2_2.rect t)).set ↔ _
  rw [View.set_slice_whole, Rect.mem_set_unit]
  exact Iff.rfl

/-- The row blocks tile the result: row r is in the block of point r / 5000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hlt : (i 0).val / 5000 < 20 := by omega
  obtain ⟨-, -, -, -, e4, e5⟩ := idx_facts ⟨(i 0).val / 5000, hlt⟩
  refine ⟨⟨(i 0).val / 5000, hlt⟩, flush2_2 _, ?_⟩
  rw [mem_blk]
  intro a
  match a with
  | ⟨0, _⟩ =>
    show win2_2.index ⟨(i 0).val / 5000, hlt⟩ (0 : Fin 2) * 5000 ≤ (i 0).val
      ∧ (i 0).val < win2_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hlt⟩ (1 : Fin 2) * 128 ≤ (i 1).val
      ∧ (i 1).val < win2_2.index ⟨(i 0).val / 5000, hlt⟩ (1 : Fin 2) * 128 + 128
    rw [e5]; omega

/-- THE RESULT ARRAY after the region: the aggregation plus the bias row, of the two arrays as the region found them. -/
theorem array_eq (c : Dev nD) :
    (dat2 (F := Ideal) V c).arrAt 2 cfg2.N = Cert.Spec.addRow (V c main_v55) (V c main_v56) :=
  (dat2 V c).arrAt_eq_of_cover 2 _ (fun t _ => flushed_eq V c t) cover

end Cert.KernelIdeal.BiasOut

end
-- ==== Proof.HostFns.lean ====
/-
  The host stretches the kernel's @main shares with the reference, each as ONE function of the arrays it reads, in the
  kernel program's vocabulary and following its printed operations.

  From the edge list: the source and destination columns with one self loop per node appended (`srcOf`, `dstOf`), and
  the symmetric normalisation 1/sqrt(deg(src)) · 1/sqrt(deg(dst)) per edge (`normOf`), the degrees counted over the
  destinations. Around each projection: the aggregation that gathers the projected row of each edge's source, scales it
  by the edge's normalisation and adds it into the row of the edge's destination (`aggHid` on 64 columns, `aggOut` on
  128). Which rows a gather reads and a scatter-add writes depends on the edge list's values; nothing in this
  certificate opens these functions, so nothing needs to know.
-/
import proofs.«124801_j39848706572466_1_alg».proof.Proof.Gen.KernelIdeal.Launch
import Idealize.ShloMosaic.PureOps.Ideal
import Idealize.ShloMosaic.Lib.ValueIdx
import Idealize.ShloMosaic.Lib.ValueLayout

noncomputable section

open Idealize.ShloMosaic Idealize.ShloMosaic.TcCoe Idealize.SL.Sem

namespace Cert.KernelIdeal.Whole

open Cert.KernelIdeal Cert.KernelIdeal.Gen

/-! ## The shared host stretches, each as one function -/

/-- A node index column with the self loops appended: row `r` of the [2, 1600000] edge list, then 0 … 99999. -/
def srcOf (e : (⟨S2x1600000, .i32⟩ : BufTy).Contents (Elt Ideal)) : (⟨S1700000, .i32⟩ : BufTy).Contents (Elt Ideal) :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

def dstOf (e : (⟨S2x1600000, .i32⟩ : BufTy).Contents (Elt Ideal)) : (⟨S1700000, .i32⟩ : BufTy).Contents (Elt Ideal) :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- An index column with its negative entries wrapped by the node count, as a column of index vectors. -/
def wrapIdx (ix : (⟨S1700000, .i32⟩ : BufTy).Contents (Elt Ideal)) : (⟨S1700000x1, .i32⟩ : BufTy).Contents (Elt Ideal) :=
  broadcastInDim S1700000x1 ![0] bcast_S1700000_S1700000x1_0
    (select (cmpi .slt ix (broadcastInDim S1700000 ![] bcast_S_S1700000 (constantI S_ 32 0#32)))
      (addi ix (broadcastInDim S1700000 ![] bcast_S_S1700000 (constantI S_ 32 100000#32))) ix)

/-- The per-edge normalisation: the in-degrees (a scatter-add of ones over the destinations), their inverse square
    roots, gathered at each edge's source and destination and multiplied. -/
def normOf (src dst : (⟨S1700000, .i32⟩ : BufTy).Contents (Elt Ideal)) : (⟨S1700000, .f32⟩ : BufTy).Contents (Elt Ideal) :=
  have dinv : (⟨S100000, .f32⟩ : BufTy).Contents (Elt Ideal) :=
    Host.rsqrt (F := Ideal) (Host.scatterAdd (F := Ideal) scatter_S100000_S1700000x1_S1700000_n_0_0_1
      (broadcastInDim S100000 ![] bcast_S_S100000 (constant (F := Ideal) S_ .f32 0x00000000#32))
      (broadcastInDim S1700000x1 ![0] bcast_S1700000_S1700000x1_0 dst)
      (broadcastInDim S1700000 ![] bcast_S_S1700000 (constant (F := Ideal) S_ .f32 0x3F800000#32)))
  mulf (F := Ideal) (φ := .f32) (Host.gather gather_S100000_S1700000x1_S1700000_n_0_n_n_0_1_1 dinv (wrapIdx src))
    (Host.gather gather_S100000_S1700000x1_S1700000_n_0_n_n_0_1_1 dinv (wrapIdx dst))

/-- The aggregation on 64 columns: gather each edge's source row of `h`, scale by the edge's normalisation, add into
    the destination row of a zero array. -/
def aggHid (src dst : (⟨S1700000, .i32⟩ : BufTy).Contents (Elt Ideal)) (nrm : (⟨S1700000, .f32⟩ : BufTy).Contents (Elt Ideal))
    (h : (⟨S100000x64, .f32⟩ : BufTy).Contents (Elt Ideal)) : (⟨S100000x64, .f32⟩ : BufTy).Contents (Elt Ideal) :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 dst)
    (mulf (F := Ideal) (φ := .f32) (broadcastInDim S1700000x64 ![0, 1] bcast_S1700000x1_S1700000x64_0_1 (broadcastInDim S1700000x1 ![0] bcast_S1700000_S1700000x1_0 nrm))
      (Host.gather gather_S100000x64_S1700000x1_S1700000x64_1_0_n_n_0_1_164 h (wrapIdx src)))

/-- The aggregation on 128 columns. -/
def aggOut (src dst : (⟨S1700000, .i32⟩ : BufTy).Contents (Elt Ideal)) (nrm : (⟨S1700000, .f32⟩ : BufTy).Contents (Elt Ideal))
    (h : (⟨S100000x128, .f32⟩ : BufTy).Contents (Elt Ideal)) : (⟨S100000x128, .f32⟩ : BufTy).Contents (Elt Ideal) :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dst)
    (mulf (F := Ideal) (φ := .f32) (broadcastInDim S1700000x128 ![0, 1] bcast_S1700000x1_S1700000x128_0_1 (broadcastInDim S1700000x1 ![0] bcast_S1700000_S1700000x1_0 nrm))
      (Host.gather gather_S100000x128_S1700000x1_S1700000x128_1_0_n_n_0_1_1128 h (wrapIdx src)))

/-! ## A bias vector laid out as a one-row matrix -/

/-- The hidden bias as a [1, 64] row: entry (0, k) is entry k of the vector. -/
def rowHid (b : (⟨S64, .f32⟩ : BufTy).Contents (Elt Ideal)) : (⟨S1x64, .f32⟩ : BufTy).Contents (Elt Ideal) :=
  shapeCast S1x64 b shapeCasts_S64_S1x64

theorem rowHid_apply (b : (⟨S64, .f32⟩ : BufTy).Contents (Elt Ideal)) (k : Fin 64) :
    rowHid b (ValueIdx.ix2 (0 : Fin 1) k) = b (ValueIdx.ix1 k) :=
  ValueIdx.shapeCast_a_1a_apply b shapeCasts_S64_S1x64 (0 : Fin 1) k

/-- The output bias as a [1, 128] row. -/
def rowOut (b : (⟨S128, .f32⟩ : BufTy).Contents (Elt Ideal)) : (⟨S1x128, .f32⟩ : BufTy).Contents (Elt Ideal) :=
  shapeCast S1x128 b shapeCasts_S128_S1x128

theorem rowOut_apply (b : (⟨S128, .f32⟩ : BufTy).Contents (Elt Ideal)) (k : Fin 128) :
    rowOut b (ValueIdx.ix2 (0 : Fin 1) k) = b (ValueIdx.ix1 k) :=
  ValueIdx.shapeCast_a_1a_apply b shapeCasts_S128_S1x128 (0 : Fin 1) k

end Cert.KernelIdeal.Whole

end
-- ==== Proof.Layers.lean ====
/-
  The two layers as one function of the six arrays: project, aggregate over the edges, add the bias and take the
  positive part; project again, aggregate, add the bias. Both programs' results are stated against this one term.
-/
import proofs.«124801_j39848706572466_1_alg».proof.Proof.Spec
import proofs.«124801_j39848706572466_1_alg».proof.Proof.HostFns

noncomputable section

open Idealize.ShloMosaic Idealize.ShloMosaic.TcCoe Idealize.SL.Sem

namespace Cert.KernelIdeal.Whole

open Cert.KernelIdeal Cert.KernelIdeal.Gen

/-- out = A (max (A (x · w1) + b1, 0) · w2) + b2, with A the aggregation over the edge list `e`'s columns. -/
def result (x : (⟨S100000x128, .f32⟩ : BufTy).Contents (Elt Ideal)) (e : (⟨S2x1600000, .i32⟩ : BufTy).Contents (Elt Ideal))
    (w1 : (⟨S128x64, .f32⟩ : BufTy).Contents (Elt Ideal)) (b1 : (⟨S64, .f32⟩ : BufTy).Contents (Elt Ideal))
    (w2 : (⟨S64x128, .f32⟩ : BufTy).Contents (Elt Ideal)) (b2 : (⟨S128, .f32⟩ : BufTy).Contents (Elt Ideal)) :
    (⟨S100000x128, .f32⟩ : BufTy).Contents (Elt Ideal) :=
  Cert.Spec.addRow
    (aggOut (srcOf e) (dstOf e) (normOf (srcOf e) (dstOf e))
      (Cert.Spec.matProd
        (Cert.Spec.biasRelu (aggHid (srcOf e) (dstOf e) (normOf (srcOf e) (dstOf e)) (Cert.Spec.matProd x w1))
          (rowHid b1))
        w2))
    (rowOut b2)

end Cert.KernelIdeal.Whole

end
-- ==== Proof.HostPre.lean ====
/-
  The first host stretch of the kernel's @main, from any contents `W` it starts from: the source column, the destination
  column and the per-edge normalisation are the stretch functions of the edge list, and the five float arguments pass
  through untouched. The stretch is read in two parts, first the seven operations that build the two columns, then the
  twenty that compute the normalisation from them, so that each column is one name while the second part is read.
-/
import proofs.«124801_j39848706572466_1_alg».proof.Proof.Gen.KernelIdeal.Launch
import proofs.«124801_j39848706572466_1_alg».proof.Proof.HostFns
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Whole

open Cert.KernelIdeal Cert.KernelIdeal.Gen

/-- Running a line of host operations is running its first part, then the rest from what that left. -/
theorem after_append {Val : EltTy → Type} (l1 l2 : List (HloOp τ sig Val)) (V : Valuation τ sig Val) :
    StableHlo.after (l1 ++ l2) V = StableHlo.after l2 (StableHlo.after l1 V) := by
  induction l1 generalizing V with
  | nil => rfl
  | cons op l ih => exact ih _

variable (W : Valuation τ sig (Elt Ideal))

/-- The stretch is its first seven operations, then the other twenty. -/
theorem pre_split (b : DevRef τ sig) :
    StableHlo.after (hostOps0 (F := Ideal)) W b
      = StableHlo.after (List.drop 7 (hostOps0 (F := Ideal))) (StableHlo.after (List.take 7 (hostOps0 (F := Ideal))) W) b := by
  rw [← after_append, List.take_append_drop]

theorem head_src : StableHlo.after (List.take 7 (hostOps0 (F := Ideal))) W (Proc.devRef .tc main_v5) = srcOf (W (Proc.devRef .tc main_arg1)) := by
  simp only [hostOps0, List.take_succ_cons, List.take_zero]
  after_results
  rfl

theorem head_dst : StableHlo.after (List.take 7 (hostOps0 (F := Ideal))) W (Proc.devRef .tc main_v6) = dstOf (W (Proc.devRef .tc main_arg1)) := by
  simp only [hostOps0, List.take_succ_cons, List.take_zero]
  after_results
  rfl

set_option maxHeartbeats 4000000 in
theorem tail_nrm : StableHlo.after (List.drop 7 (hostOps0 (F := Ideal))) W (Proc.devRef .tc main_v26)
    = normOf (W (Proc.devRef .tc main_v5)) (W (Proc.devRef .tc main_v6)) := by
  simp only [hostOps0, List.drop_succ_cons, List.drop_zero]
  after_results
  rfl

theorem tail_src : StableHlo.after (List.drop 7 (hostOps0 (F := Ideal))) W (Proc.devRef .tc main_v5) = W (Proc.devRef .tc main_v5) := by
  simp only [hostOps0, List.drop_succ_cons, List.drop_zero]
  after_results_simp <;> rfl

theorem tail_dst : StableHlo.after (List.drop 7 (hostOps0 (F := Ideal))) W (Proc.devRef .tc main_v6) = W (Proc.devRef .tc main_v6) := by
  simp only [hostOps0, List.drop_succ_cons, List.drop_zero]
  after_results_simp <;> rfl

/-- After the first stretch the source column is `srcOf` of the edge list. -/
theorem pre_src : StableHlo.after (hostOps0 (F := Ideal)) W (Proc.devRef .tc main_v5) = srcOf (W (Proc.devRef .tc main_arg1)) := by
  rw [pre_split, tail_src, head_src]

theorem pre_dst : StableHlo.after (hostOps0 (F := Ideal)) W (Proc.devRef .tc main_v6) = dstOf (W (Proc.devRef .tc main_arg1)) := by
  rw [pre_split, tail_dst, head_dst]

/-- After the first stretch the normalisation is `normOf` of the two columns. -/
theorem pre_nrm : StableHlo.after (hostOps0 (F := Ideal)) W (Proc.devRef .tc main_v26)
    = normOf (srcOf (W (Proc.devRef .tc main_arg1))) (dstOf (W (Proc.devRef .tc main_arg1))) := by
  rw [pre_split, tail_nrm, head_src, head_dst]

/-! The float arguments pass through. -/

theorem pre_arg0 : StableHlo.after (hostOps0 (F := Ideal)) W (Proc.devRef .tc main_arg0) = W (Proc.devRef .tc main_arg0) := by
  after_results_simp <;> rfl
theorem pre_arg2 : StableHlo.after (hostOps0 (F := Ideal)) W (Proc.devRef .tc main_arg2) = W (Proc.devRef .tc main_arg2) := by
  after_results_simp <;> rfl
theorem pre_arg3 : StableHlo.after (hostOps0 (F := Ideal)) W (Proc.devRef .tc main_arg3) = W (Proc.devRef .tc main_arg3) := by
  after_results_simp <;> rfl
theorem pre_arg4 : StableHlo.after (hostOps0 (F := Ideal)) W (Proc.devRef .tc main_arg4) = W (Proc.devRef .tc main_arg4) := by
  after_results_simp <;> rfl
theorem pre_arg5 : StableHlo.after (hostOps0 (F := Ideal)) W (Proc.devRef .tc main_arg5) = W (Proc.devRef .tc main_arg5) := by
  after_results_simp <;> rfl

end Cert.KernelIdeal.Whole

end
-- ==== Proof.HostMid.lean ====
/-
  The second and third host stretches of the kernel's @main, from any contents `W` each starts from. The second
  aggregates the first projection over the edges (`aggHid`) and lays the hidden bias out as a [1, 64] row; the third
  aggregates the second projection (`aggOut`) and lays the output bias out as a [1, 128] row. Everything else they
  leave as they found it.
-/
import proofs.«124801_j39848706572466_1_alg».proof.Proof.Gen.KernelIdeal.Launch
import proofs.«124801_j39848706572466_1_alg».proof.Proof.HostFns
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Whole

open Cert.KernelIdeal Cert.KernelIdeal.Gen

variable (W : Valuation τ sig (Elt Ideal))

/-! ## Between the first and the second region -/

set_option maxHeartbeats 4000000 in
/-- The first aggregation: `aggHid` of the two columns, the normalisation and the first projection. -/
theorem mid_hid : StableHlo.after (hostOps1 (F := Ideal)) W (Proc.devRef .tc main_v40)
    = aggHid (W (Proc.devRef .tc main_v5)) (W (Proc.devRef .tc main_v6)) (W (Proc.devRef .tc main_v26)) (W (Proc.devRef .tc main_v27)) := by
  after_results
  rfl

/-- The hidden bias as a [1, 64] row. -/
theorem mid_bias : StableHlo.after (hostOps1 (F := Ideal)) W (Proc.devRef .tc main_v41)
    = rowHid (W (Proc.devRef .tc main_arg3)) := by
  after_results
  rfl

theorem mid_arg4 : StableHlo.after (hostOps1 (F := Ideal)) W (Proc.devRef .tc main_arg4) = W (Proc.devRef .tc main_arg4) := by
  after_results_simp <;> rfl
theorem mid_arg5 : StableHlo.after (hostOps1 (F := Ideal)) W (Proc.devRef .tc main_arg5) = W (Proc.devRef .tc main_arg5) := by
  after_results_simp <;> rfl
theorem mid_src : StableHlo.after (hostOps1 (F := Ideal)) W (Proc.devRef .tc main_v5) = W (Proc.devRef .tc main_v5) := by
  after_results_simp <;> rfl
theorem mid_dst : StableHlo.after (hostOps1 (F := Ideal)) W (Proc.devRef .tc main_v6) = W (Proc.devRef .tc main_v6) := by
  after_results_simp <;> rfl
theorem mid_nrm : StableHlo.after (hostOps1 (F := Ideal)) W (Proc.devRef .tc main_v26) = W (Proc.devRef .tc main_v26) := by
  after_results_simp <;> rfl

/-! ## Between the second and the third region -/

set_option maxHeartbeats 4000000 in
/-- The second aggregation: `aggOut` of the two columns, the normalisation and the second projection. -/
theorem post_out : StableHlo.after (hostOps2 (F := Ideal)) W (Proc.devRef .tc main_v55)
    = aggOut (W (Proc.devRef .tc main_v5)) (W (Proc.devRef .tc main_v6)) (W (Proc.devRef .tc main_v26)) (W (Proc.devRef .tc main_v42)) := by
  after_results
  rfl

/-- The output bias as a [1, 128] row. -/
theorem post_bias : StableHlo.after (hostOps2 (F := Ideal)) W (Proc.devRef .tc main_v56)
    = rowOut (W (Proc.devRef .tc main_arg5)) := by
  after_results
  rfl

end Cert.KernelIdeal.Whole

end
-- ==== Proof.KernelValue.lean ====
/-
  The kernel's result as one function of the six launch arrays.

  The buffers' contents at each boundary of @main are a fold from the launch memory (the generated `W1 … W6`: a host
  stretch applied to what the boundary before left; a region's arrays at what its write-backs leave). The fold is read
  back here boundary by boundary: a host stretch's result is its stretch function of the buffers it reads, a region's
  result array is the dense stage of the arrays the region found (the three region modules), and every other buffer is
  as the boundary before left it. At the last boundary the result buffer holds

      addRow (aggOut s d n (matProd (biasRelu (aggHid s d n (matProd x w1)) (row b1)) w2)) (row b2)

  with s, d the source and destination columns of the edge list and n its normalisation: two graph-convolution layers.
-/
import proofs.«124801_j39848706572466_1_alg».proof.Proof.Gen.KernelIdeal.Frame
import proofs.«124801_j39848706572466_1_alg».proof.Proof.Spec
import proofs.«124801_j39848706572466_1_alg».proof.Proof.Lin1
import proofs.«124801_j39848706572466_1_alg».proof.Proof.Lin2
import proofs.«124801_j39848706572466_1_alg».proof.Proof.BiasOut
import proofs.«124801_j39848706572466_1_alg».proof.Proof.HostFns
import proofs.«124801_j39848706572466_1_alg».proof.Proof.Layers
import proofs.«124801_j39848706572466_1_alg».proof.Proof.HostPre
import proofs.«124801_j39848706572466_1_alg».proof.Proof.HostMid
import proofs.«124801_j39848706572466_1_alg».proof.Proof.KernelRun

set_option maxRecDepth 16384

noncomputable section

open Idealize.ShloMosaic Idealize.ShloMosaic.TcCoe Idealize.SL.Sem Idealize.ShloMosaic.StableHlo

namespace Cert.KernelIdeal.Whole

open Cert.KernelIdeal Cert.KernelIdeal.Gen

variable (m : (ℓ : Loc nD τ sig) → Buf (Elt Ideal) ℓ) (ρ : Dev nD → PrngReg)

/-- The six arrays as launched. -/
abbrev argX (c : Dev nD) : (⟨S100000x128, .f32⟩ : BufTy).Contents (Elt Ideal) := m ((c.tc : Thread nD τ).loc main_arg0)
abbrev argE (c : Dev nD) : (⟨S2x1600000, .i32⟩ : BufTy).Contents (Elt Ideal) := m ((c.tc : Thread nD τ).loc main_arg1)
abbrev argW1 (c : Dev nD) : (⟨S128x64, .f32⟩ : BufTy).Contents (Elt Ideal) := m ((c.tc : Thread nD τ).loc main_arg2)
abbrev argB1 (c : Dev nD) : (⟨S64, .f32⟩ : BufTy).Contents (Elt Ideal) := m ((c.tc : Thread nD τ).loc main_arg3)
abbrev argW2 (c : Dev nD) : (⟨S64x128, .f32⟩ : BufTy).Contents (Elt Ideal) := m ((c.tc : Thread nD τ).loc main_arg4)
abbrev argB2 (c : Dev nD) : (⟨S128, .f32⟩ : BufTy).Contents (Elt Ideal) := m ((c.tc : Thread nD τ).loc main_arg5)

/-! ## At the first region's entry -/

theorem at1_src (c : Dev nD) : W1 m ρ c (Proc.devRef .tc main_v5) = srcOf (argE m c) := pre_src (W0 m ρ c)
theorem at1_dst (c : Dev nD) : W1 m ρ c (Proc.devRef .tc main_v6) = dstOf (argE m c) := pre_dst (W0 m ρ c)
theorem at1_nrm (c : Dev nD) : W1 m ρ c (Proc.devRef .tc main_v26) = normOf (srcOf (argE m c)) (dstOf (argE m c)) :=
  pre_nrm (W0 m ρ c)
theorem at1_x (c : Dev nD) : W1 m ρ c (Proc.devRef .tc main_arg0) = argX m c := pre_arg0 (W0 m ρ c)
theorem at1_w1 (c : Dev nD) : W1 m ρ c (Proc.devRef .tc main_arg2) = argW1 m c := pre_arg2 (W0 m ρ c)
theorem at1_b1 (c : Dev nD) : W1 m ρ c (Proc.devRef .tc main_arg3) = argB1 m c := pre_arg3 (W0 m ρ c)
theorem at1_w2 (c : Dev nD) : W1 m ρ c (Proc.devRef .tc main_arg4) = argW2 m c := pre_arg4 (W0 m ρ c)
theorem at1_b2 (c : Dev nD) : W1 m ρ c (Proc.devRef .tc main_arg5) = argB2 m c := pre_arg5 (W0 m ρ c)

/-! ## At the first region's exit -/

/-- The first projection: the product of the features and the first weight. -/
theorem at2_lin (c : Dev nD) : W2 m ρ c (Proc.devRef .tc main_v27) = Cert.Spec.matProd (argX m c) (argW1 m c) := by
  refine (W2_arr m ρ c 2).trans ((Cert.KernelIdeal.Lin1.array_eq (V1 m ρ) c).trans ?_)
  show Cert.Spec.matProd (W1 m ρ c (Proc.devRef .tc main_arg0)) (W1 m ρ c (Proc.devRef .tc main_arg2)) = _
  rw [at1_x, at1_w1]
theorem at2_src (c : Dev nD) : W2 m ρ c (Proc.devRef .tc main_v5) = srcOf (argE m c) :=
  (W2_of_ne m ρ c main_v5 (by decide)).trans (at1_src m ρ c)
theorem at2_dst (c : Dev nD) : W2 m ρ c (Proc.devRef .tc main_v6) = dstOf (argE m c) :=
  (W2_of_ne m ρ c main_v6 (by decide)).trans (at1_dst m ρ c)
theorem at2_nrm (c : Dev nD) : W2 m ρ c (Proc.devRef .tc main_v26) = normOf (srcOf (argE m c)) (dstOf (argE m c)) :=
  (W2_of_ne m ρ c main_v26 (by decide)).trans (at1_nrm m ρ c)
theorem at2_b1 (c : Dev nD) : W2 m ρ c (Proc.devRef .tc main_arg3) = argB1 m c :=
  (W2_of_ne m ρ c main_arg3 (by decide)).trans (at1_b1 m ρ c)
theorem at2_w2 (c : Dev nD) : W2 m ρ c (Proc.devRef .tc main_arg4) = argW2 m c :=
  (W2_of_ne m ρ c main_arg4 (by decide)).trans (at1_w2 m ρ c)
theorem at2_b2 (c : Dev nD) : W2 m ρ c (Proc.devRef .tc main_arg5) = argB2 m c :=
  (W2_of_ne m ρ c main_arg5 (by decide)).trans (at1_b2 m ρ c)

/-! ## At the second region's entry -/

/-- The first aggregation, of the first projection. -/
theorem at3_hid (c : Dev nD) : W3 m ρ c (Proc.devRef .tc main_v40)
    = aggHid (srcOf (argE m c)) (dstOf (argE m c)) (normOf (srcOf (argE m c)) (dstOf (argE m c)))
        (Cert.Spec.matProd (argX m c) (argW1 m c)) := by
  refine (mid_hid (W2 m ρ c)).trans ?_
  rw [at2_src, at2_dst, at2_nrm, at2_lin]
theorem at3_bias (c : Dev nD) : W3 m ρ c (Proc.devRef .tc main_v41)
    = rowHid (argB1 m c) := by
  refine (mid_bias (W2 m ρ c)).trans ?_
  rw [at2_b1]
theorem at3_w2 (c : Dev nD) : W3 m ρ c (Proc.devRef .tc main_arg4) = argW2 m c :=
  (mid_arg4 (W2 m ρ c)).trans (at2_w2 m ρ c)
theorem at3_b2 (c : Dev nD) : W3 m ρ c (Proc.devRef .tc main_arg5) = argB2 m c :=
  (mid_arg5 (W2 m ρ c)).trans (at2_b2 m ρ c)
theorem at3_src (c : Dev nD) : W3 m ρ c (Proc.devRef .tc main_v5) = srcOf (argE m c) :=
  (mid_src (W2 m ρ c)).trans (at2_src m ρ c)
theorem at3_dst (c : Dev nD) : W3 m ρ c (Proc.devRef .tc main_v6) = dstOf (argE m c) :=
  (mid_dst (W2 m ρ c)).trans (at2_dst m ρ c)
theorem at3_nrm (c : Dev nD) : W3 m ρ c (Proc.devRef .tc main_v26) = normOf (srcOf (argE m c)) (dstOf (argE m c)) :=
  (mid_nrm (W2 m ρ c)).trans (at2_nrm m ρ c)

/-! ## At the second region's exit -/

/-- The second projection: the activated hidden features times the second weight. -/
theorem at4_lin (c : Dev nD) : W4 m ρ c (Proc.devRef .tc main_v42)
    = Cert.Spec.matProd
        (Cert.Spec.biasRelu
          (aggHid (srcOf (argE m c)) (dstOf (argE m c)) (normOf (srcOf (argE m c)) (dstOf (argE m c)))
            (Cert.Spec.matProd (argX m c) (argW1 m c)))
          (rowHid (argB1 m c)))
        (argW2 m c) := by
  refine (W4_arr m ρ c 3).trans ((Cert.KernelIdeal.Lin2.array_eq (V3 m ρ) c).trans ?_)
  show Cert.Spec.matProd (Cert.Spec.biasRelu (W3 m ρ c (Proc.devRef .tc main_v40)) (W3 m ρ c (Proc.devRef .tc main_v41)))
      (W3 m ρ c (Proc.devRef .tc main_arg4)) = _
  rw [at3_hid, at3_bias, at3_w2]
theorem at4_src (c : Dev nD) : W4 m ρ c (Proc.devRef .tc main_v5) = srcOf (argE m c) :=
  (W4_of_ne m ρ c main_v5 (by decide)).trans (at3_src m ρ c)
theorem at4_dst (c : Dev nD) : W4 m ρ c (Proc.devRef .tc main_v6) = dstOf (argE m c) :=
  (W4_of_ne m ρ c main_v6 (by decide)).trans (at3_dst m ρ c)
theorem at4_nrm (c : Dev nD) : W4 m ρ c (Proc.devRef .tc main_v26) = normOf (srcOf (argE m c)) (dstOf (argE m c)) :=
  (W4_of_ne m ρ c main_v26 (by decide)).trans (at3_nrm m ρ c)
theorem at4_b2 (c : Dev nD) : W4 m ρ c (Proc.devRef .tc main_arg5) = argB2 m c :=
  (W4_of_ne m ρ c main_arg5 (by decide)).trans (at3_b2 m ρ c)

/-! ## At the third region's entry and exit -/

/-- The second aggregation, of the second projection. -/
theorem at5_out (c : Dev nD) : W5 m ρ c (Proc.devRef .tc main_v55)
    = aggOut (srcOf (argE m c)) (dstOf (argE m c)) (normOf (srcOf (argE m c)) (dstOf (argE m c)))
        (Cert.Spec.matProd
          (Cert.Spec.biasRelu
            (aggHid (srcOf (argE m c)) (dstOf (argE m c)) (normOf (srcOf (argE m c)) (dstOf (argE m c)))
              (Cert.Spec.matProd (argX m c) (argW1 m c)))
            (rowHid (argB1 m c)))
          (argW2 m c)) := by
  refine (post_out (W4 m ρ c)).trans ?_
  rw [at4_src, at4_dst, at4_nrm, at4_lin]
theorem at5_bias (c : Dev nD) : W5 m ρ c (Proc.devRef .tc main_v56)
    = rowOut (argB2 m c) := by
  refine (post_bias (W4 m ρ c)).trans ?_
  rw [at4_b2]

/-- THE RESULT BUFFER at the last boundary: the two layers of the six launch arrays. -/
theorem at6_result (c : Dev nD) : W6 m ρ c (Proc.devRef .tc main_v57)
    = result (argX m c) (argE m c) (argW1 m c) (argB1 m c) (argW2 m c) (argB2 m c) := by
  refine (W6_arr m ρ c 2).trans ((Cert.KernelIdeal.BiasOut.array_eq (V5 m ρ) c).trans ?_)
  show Cert.Spec.addRow (W5 m ρ c (Proc.devRef .tc main_v55)) (W5 m ρ c (Proc.devRef .tc main_v56)) = _
  rw [at5_out, at5_bias]
  rfl

/-- THE RUN, READ: every weakly fair execution of the kernel's @main ends with the result buffer at `result` of the
    launch arrays, the arguments unchanged. -/
theorem run : θ_run defs (onTc (τ := τ) (main (F := Ideal))) ⟨m, fun _ => 0, ρ⟩ (fun r => ∀ c : Dev nD,
      r.2.mem ((c.tc : Thread nD τ).loc main_v57)
        = result (argX m c) (argE m c) (argW1 m c) (argB1 m c) (argW2 m c) (argB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (at6_result m ρ c), (h c).2⟩)
    (Cert.KernelIdeal.ValueRun.run_value (F := Ideal) m ρ)

end Cert.KernelIdeal.Whole

end
-- ==== Proof.RefValue.lean ====
/-
  The reference's side. Its run ends with the result buffer at its operations' composed term of the six arrays; read one
  operation at a time that term is the same two layers as the kernel's:

    * the two index columns, the normalisation and the two aggregations are the kernel's stretch functions, operation for
      operation (the two programs print the same host operations, each over its own copy of the shape records);
    * the two `dot_general`s are the matrix product: at (p, o) the sum over k of the left operand at (p, k) times the right
      at (k, o);
    * the bias, broadcast over the rows and added, then the maximum with zero, is the positive part of the row-wise sum;
      the last bias, broadcast and added, is the row-wise sum. The reference broadcasts a bias vector to a row where the
      kernel reshapes it: both rows hold entry k of the vector at (0, k).
-/
import proofs.«124801_j39848706572466_1_alg».proof.Defs
import proofs.«124801_j39848706572466_1_alg».proof.Proof.Gen.ReferenceIdeal.Run
import proofs.«124801_j39848706572466_1_alg».proof.Proof.Gen.ReferenceIdeal.Read
import proofs.«124801_j39848706572466_1_alg».proof.Proof.Spec
import proofs.«124801_j39848706572466_1_alg».proof.Proof.HostFns
import proofs.«124801_j39848706572466_1_alg».proof.Proof.Layers

noncomputable section

open scoped BigOperators
open Idealize.ShloMosaic Idealize.ShloMosaic.TcCoe Idealize.SL.Sem Idealize.ShloMosaic.ValueIdx

namespace Cert.ReferenceIdeal.Whole

open Cert.ReferenceIdeal Cert.ReferenceIdeal.Read
open Cert.KernelIdeal.Whole (srcOf dstOf normOf aggHid aggOut rowHid rowOut rowHid_apply rowOut_apply)

variable (x0 : (⟨S100000x128, .f32⟩ : BufTy).Contents (Elt Ideal)) (x1 : (⟨S2x1600000, .i32⟩ : BufTy).Contents (Elt Ideal))
  (x2 : (⟨S128x64, .f32⟩ : BufTy).Contents (Elt Ideal)) (x3 : (⟨S64, .f32⟩ : BufTy).Contents (Elt Ideal))
  (x4 : (⟨S64x128, .f32⟩ : BufTy).Contents (Elt Ideal)) (x5 : (⟨S128, .f32⟩ : BufTy).Contents (Elt Ideal))

/-! ## The shared host stretches -/

theorem src_eq : val_main_v5 (F := Ideal) x1 = srcOf x1 := rfl
theorem dst_eq : val_main_v6 (F := Ideal) x1 = dstOf x1 := rfl
theorem nrm_eq : val_main_v26 (F := Ideal) x1 = normOf (val_main_v5 (F := Ideal) x1) (val_main_v6 (F := Ideal) x1) := rfl
theorem hid_eq : val_main_v40 (F := Ideal) x0 x1 x2
    = aggHid (val_main_v5 (F := Ideal) x1) (val_main_v6 (F := Ideal) x1) (val_main_v26 (F := Ideal) x1) (val_main_v27 (F := Ideal) x0 x2) := rfl
theorem out_eq : val_main_v58 (F := Ideal) x0 x1 x2 x3 x4
    = aggOut (val_main_v5 (F := Ideal) x1) (val_main_v6 (F := Ideal) x1) (val_main_v26 (F := Ideal) x1) (val_main_v45 (F := Ideal) x0 x1 x2 x3 x4) := rfl

/-! ## The dense stages -/

/-- The first `dot_general` is the product of the features and the first weight. -/
theorem lin1_eq : val_main_v27 (F := Ideal) x0 x2 = Cert.Spec.matProd x0 x2 := by
  refine Cert.Spec.ext_ix2 _ _ fun p o => ?_
  rw [val_main_v27_apply, Cert.Spec.matProd_apply]
  refine Finset.sum_congr rfl fun k _ => ?_
  have el : lidx_main_v27 (ix2 p o) k = ix2 p k := funext fun a => Fin.ext (by
    match a with
    | ⟨0, _⟩ => rfl
    | ⟨1, _⟩ => rfl)
  have er : ridx_main_v27 (ix2 p o) k = ix2 k o := funext fun a => Fin.ext (by
    match a with
    | ⟨0, _⟩ => rfl
    | ⟨1, _⟩ => rfl)
  rw [el, er]

/-- The bias broadcast over the rows and added, then the maximum with zero: the positive part of the row-wise sum, for any
    row `r` that holds the bias vector. -/
theorem act_eq (r : (⟨S1x64, .f32⟩ : BufTy).Contents (Elt Ideal)) (hr : ∀ k : Fin 64, r (ix2 (0 : Fin 1) k) = x3 (ix1 k)) :
    val_main_v44 (F := Ideal) x0 x1 x2 x3 = Cert.Spec.biasRelu (val_main_v40 (F := Ideal) x0 x1 x2) r := by
  refine Cert.Spec.ext_ix2 _ _ fun p o => ?_
  rw [val_main_v44_apply, val_main_v43_apply, val_main_v42_apply, val_main_v41_apply, val_main_call0_v0_apply,
    val_main_call0_cst_apply, Cert.Spec.biasRelu_apply, hr]
  have e : idx_main_v41 (idx_main_v42 (ix2 p o)) = ix1 o := funext fun a => Fin.ext (by
    match a with
    | ⟨0, _⟩ => rfl)
  rw [e]
  rfl

/-- The second `dot_general` is the product of the activated hidden features and the second weight. -/
theorem lin2_eq : val_main_v45 (F := Ideal) x0 x1 x2 x3 x4 = Cert.Spec.matProd (val_main_v44 (F := Ideal) x0 x1 x2 x3) x4 := by
  refine Cert.Spec.ext_ix2 _ _ fun p o => ?_
  rw [val_main_v45_apply, Cert.Spec.matProd_apply]
  refine Finset.sum_congr rfl fun k _ => ?_
  have el : lidx_main_v45 (ix2 p o) k = ix2 p k := funext fun a => Fin.ext (by
    match a with
    | ⟨0, _⟩ => rfl
    | ⟨1, _⟩ => rfl)
  have er : ridx_main_v45 (ix2 p o) k = ix2 k o := funext fun a => Fin.ext (by
    match a with
    | ⟨0, _⟩ => rfl
    | ⟨1, _⟩ => rfl)
  rw [el, er]

/-- The last bias broadcast over the rows and added: the row-wise sum, for any row `r` that holds the bias vector. -/
theorem fin_eq (r : (⟨S1x128, .f32⟩ : BufTy).Contents (Elt Ideal)) (hr : ∀ k : Fin 128, r (ix2 (0 : Fin 1) k) = x5 (ix1 k)) :
    val_main_v61 (F := Ideal) x0 x1 x2 x3 x4 x5 = Cert.Spec.addRow (val_main_v58 (F := Ideal) x0 x1 x2 x3 x4) r := by
  refine Cert.Spec.ext_ix2 _ _ fun p o => ?_
  rw [val_main_v61_apply, val_main_v60_apply, val_main_v59_apply, Cert.Spec.addRow_apply, hr]
  have e : idx_main_v59 (idx_main_v60 (ix2 p o)) = ix1 o := funext fun a => Fin.ext (by
    match a with
    | ⟨0, _⟩ => rfl)
  rw [e]
  rfl

/-! ## The whole -/

/-- THE REFERENCE'S RESULT is the kernel's function of the six arrays. -/
theorem result_eq : val_main_v61 (F := Ideal) x0 x1 x2 x3 x4 x5 = Cert.KernelIdeal.Whole.result x0 x1 x2 x3 x4 x5 := by
  unfold Cert.KernelIdeal.Whole.result
  rw [fin_eq x0 x1 x2 x3 x4 x5 (rowOut x5) (rowOut_apply x5), out_eq, lin2_eq,
    act_eq x0 x1 x2 x3 (rowHid x3) (rowHid_apply x3), hid_eq, lin1_eq, nrm_eq, src_eq, dst_eq]

end Cert.ReferenceIdeal.Whole

end
-- ==== Proof.lean ====
/-
  A two-layer graph convolution over 100000 nodes and 1600000 edges, the kernel against its jnp reference, as functions
  of the node features x, the edge list e, and the weights and biases w1, b1, w2, b2, over the extended reals.

  Both programs compute, with s and d the source and destination columns of e (one self loop per node appended) and n
  the per-edge normalisation 1/sqrt(deg(s)) · 1/sqrt(deg(d)),

      out = A (max (A (x · w1) + b1, 0) · w2) + b2,

  where A gathers each edge's source row, scales it by n and adds it into the edge's destination row. The kernel
  computes the three dense stages — x · w1; the bias, the positive part and the product with w2; the last bias — in
  three pallas_calls, each over 20 blocks of 5000 rows with the weight or bias resident, and leaves s, d, n and the two
  aggregations A to host operations, the very operations the reference runs. The reference computes the dense stages
  with `dot_general`, broadcasts and a maximum over the whole arrays.

  So the two results are ONE function of the six arrays, and what there is to prove is only that a product computed row
  block by row block into a zero accumulator is the product computed at once, entry by entry the same finite sum (the
  narrowings to bf16 are the identity on extended reals), and the same for the two row-wise bias stages. The
  aggregations and the normalisation are never opened. No law used needs the entries to be finite: the precondition is
  not used.

  `frame_Kernel`, `frame_KernelIdeal`: the generated frames. `frame_ReferenceIdeal`: the reference's generated run with
  its result dropped. `preserves`: the ideal pass rewrote nothing. `algebraic`: the kernel's run with its result buffer
  read back boundary by boundary to `Whole.result` of the launch arrays, the reference's generated run read one
  operation at a time to the same `Whole.result`, the two memories agreeing on the arguments.
-/
import proofs.«124801_j39848706572466_1_alg».proof.Defs
import proofs.«124801_j39848706572466_1_alg».proof.Proof.Gen.Kernel
import proofs.«124801_j39848706572466_1_alg».proof.Proof.Gen.Kernel.Frame
import proofs.«124801_j39848706572466_1_alg».proof.Proof.Gen.KernelIdeal
import proofs.«124801_j39848706572466_1_alg».proof.Proof.Gen.KernelIdeal.Frame
import proofs.«124801_j39848706572466_1_alg».proof.Proof.Gen.ReferenceIdeal
import proofs.«124801_j39848706572466_1_alg».proof.Proof.Gen.ReferenceIdeal.Run
import proofs.«124801_j39848706572466_1_alg».proof.Proof.Gen.ReferenceIdeal.Read
import proofs.«124801_j39848706572466_1_alg».proof.Proof.Gen.Pre_finite_inputs
import proofs.«124801_j39848706572466_1_alg».proof.Proof.KernelValue
import proofs.«124801_j39848706572466_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with their result buffer at the two layers of the six arrays, and the arrays agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, Cert.ReferenceIdeal.Whole.result_eq]
  obtain ⟨h0, h1, h2, h3, h4, h5⟩ := hagree c
  rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
